-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 49
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S100000x1, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x64, .f32⟩
  | .hbm, ⟨48, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  Two stacked SAGE convolutions with mean aggregation, over the extended reals.

  One layer, at node `r` and output feature `q`:  the neighbour sum `agg r ·` divided by the in-degree `cnt r` (floored at one, so an
  isolated node keeps the zero sum), times the left weights, summed over the 128 input features; plus the node's own features
  times the right weights, summed likewise; plus the bias. The first layer is followed by `max · 0`; the second is not, and has 64
  output features instead of 128.
-/
import Idealize.ShloMosaic.PureOps.Ideal
import Idealize.ShloMosaic.Lib.ValueIdx

noncomputable section

namespace Cert.Sage

open Idealize.ShloMosaic Idealize.ShloMosaic.ValueIdx

/-- The f32 words `1.0` and `0.0` read as extended reals (never evaluated: both programs spell the same words). -/
abbrev one : EReal := Ideal.ofBits .f32 0x3F800000#32
abbrev zero : EReal := Ideal.ofBits .f32 0x00000000#32

/-- Node features, neighbour sums and the hidden layer: 100000 nodes by 128 features. -/
abbrev Nodes : Shape := ⟨2, ![100000, 128]⟩
/-- One number per node (the in-degree). -/
abbrev PerNode : Shape := ⟨1, ![100000]⟩

/-- The layer before its activation, at node `r` and output feature `q` (`e` output features). -/
def conv {e : ℕ} (agg : Nodes.Idx → EReal) (cnt : PerNode.Idx → EReal) (feat : Nodes.Idx → EReal)
    (wl wr : (⟨2, ![128, e]⟩ : Shape).Idx → EReal) (b : (⟨1, ![e]⟩ : Shape).Idx → EReal) (r : Fin 100000) (q : Fin e) : EReal :=
  (∑ k : Fin 128, Ideal.div (agg (ix2 r k)) (max (cnt (ix1 r)) one) * wl (ix2 k q)
      + ∑ k : Fin 128, feat (ix2 r k) * wr (ix2 k q))
    + b (ix1 q)

/-- The hidden layer: the convolution floored at zero. -/
def hidden (agg : Nodes.Idx → EReal) (cnt : PerNode.Idx → EReal) (feat : Nodes.Idx → EReal)
    (wl wr : (⟨2, ![128, 128]⟩ : Shape).Idx → EReal) (b : (⟨1, ![128]⟩ : Shape).Idx → EReal) : Nodes.Idx → EReal :=
  fun i => max (conv agg cnt feat wl wr b (i 0) (i 1)) zero

/-- The output layer: the convolution as it is, 64 features wide. -/
def output (agg : Nodes.Idx → EReal) (cnt : PerNode.Idx → EReal) (feat : Nodes.Idx → EReal)
    (wl wr : (⟨2, ![128, 64]⟩ : Shape).Idx → EReal) (b : (⟨1, ![64]⟩ : Shape).Idx → EReal) : (⟨2, ![100000, 64]⟩ : Shape).Idx → EReal :=
  fun i => conv agg cnt feat wl wr b (i 0) (i 1)

end Cert.Sage

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  What one grid point's body computes, entry by entry. The block of 5000 nodes is processed whole: the neighbour sums are
  divided row by row by the in-degree column floored at one, the quotient and the node features are each multiplied into
  their 128-row weight matrix (the change to bf16 on the way in is the identity on extended reals), the two products and the
  bias row are added, and the first layer floors the result at zero. At row `p`, column `c` of the block this is the
  layer's formula over the block's own rows.
-/
import proofs.«174134_j14474039787538_1_alg».proof.Proof.Gen.KernelIdeal.Skeleton
import proofs.«174134_j14474039787538_1_alg».proof.Proof.Spec
import proofs.«174134_j14474039787538_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The two matrix products: which entries of the operands meet at a contraction position -/

theorem lhs_wide_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_wide_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_wide_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_wide_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into the zero accumulator, at row `p` and column `c`: the sum over the 128 contracted
    features of the left operand's row `p` times the right operand's column `c`. -/
theorem matmul_wide_apply (l : FVec Ideal S5000x128 .bf16) (r : FVec Ideal S128x128 .bf16) (p : Fin 5000) (c : Fin 128) :
    matmul dot_S5000x128_S128x128_S5000x128_1_0_0_1_n_n none l r (constant S5000x128 .f32 0x00000000#32) (ix2 p c) = ∑ k : Fin 128, l (ix2 p k) * r (ix2 k c) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p c) ((ValueIdx.contrEquiv1 dot_S5000x128_S128x128_S5000x128_1_0_0_1_n_n 128 rfl rfl).symm k) = ix2 p k := funext fun a => Fin.ext (by
    match a with
    | ⟨0, _⟩ => exact lhs_wide_0 _ _
    | ⟨1, _⟩ => exact (lhs_wide_1 _ _).trans hk)
  have er : dot_S5000x128_S128x128_S5000x128_1_0_0_1_n_n.rhsIdx (ix2 p c) ((ValueIdx.contrEquiv1 dot_S5000x128_S128x128_S5000x128_1_0_0_1_n_n 128 rfl rfl).symm k) = ix2 k c := funext fun a => Fin.ext (by
    match a with
    | ⟨0, _⟩ => exact (rhs_wide_0 _ _).trans hk
    | ⟨1, _⟩ => exact rhs_wide_1 _ _)
  rw [el, er]

theorem lhs_narrow_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_narrow_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_narrow_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_narrow_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's matrix product into the zero accumulator, at row `p` and column `c`: the sum over the 128 contracted
    features of the left operand's row `p` times the right operand's column `c`. -/
theorem matmul_narrow_apply (l : FVec Ideal S5000x128 .bf16) (r : FVec Ideal S128x64 .bf16) (p : Fin 5000) (c : Fin 64) :
    matmul dot_S5000x128_S128x64_S5000x64_1_0_0_1_n_n none l r (constant S5000x64 .f32 0x00000000#32) (ix2 p c) = ∑ k : Fin 128, l (ix2 p k) * r (ix2 k c) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p c) ((ValueIdx.contrEquiv1 dot_S5000x128_S128x64_S5000x64_1_0_0_1_n_n 128 rfl rfl).symm k) = ix2 p k := funext fun a => Fin.ext (by
    match a with
    | ⟨0, _⟩ => exact lhs_narrow_0 _ _
    | ⟨1, _⟩ => exact (lhs_narrow_1 _ _).trans hk)
  have er : dot_S5000x128_S128x64_S5000x64_1_0_0_1_n_n.rhsIdx (ix2 p c) ((ValueIdx.contrEquiv1 dot_S5000x128_S128x64_S5000x64_1_0_0_1_n_n 128 rfl rfl).symm k) = ix2 k c := funext fun a => Fin.ext (by
    match a with
    | ⟨0, _⟩ => exact (rhs_narrow_0 _ _).trans hk
    | ⟨1, _⟩ => exact rhs_narrow_1 _ _)
  rw [el, er]

/-! ## The stored value at an entry of the block -/

/-- First layer, entry `(p, c)` of the block the body stores: the convolution over the block's row `p`, floored at zero. -/
theorem hidden_block_apply (cnt : Vec Ideal S5000x1 .f32) (agg feat : Vec Ideal S5000x128 .f32) (wl wr : Vec Ideal S128x128 .f32)
    (b : Vec Ideal S1x128 .f32) (p : Fin 5000) (c : Fin 128) :
    k0_pay1 (F := Ideal) cnt agg feat wl wr b (ix2 p c)
      = max ((∑ k : Fin 128, Ideal.div (agg (ix2 p k)) (max (cnt (ix2 p (0 : Fin 1))) Sage.one) * wl (ix2 k c)
              + ∑ k : Fin 128, feat (ix2 p k) * wr (ix2 k c))
            + b (ix2 (0 : Fin 1) c)) Sage.zero := by
  unfold k0_pay1
  simp only [maximumf_apply, addf_apply, matmul_wide_apply, truncf_apply, divf_apply, broadcast_apply,
    shapeCast_self, LibKeepdims.broadcastTo_a1_ab_apply, broadcastTo_1b_ab_apply]
  rfl

/-- Second layer, entry `(p, c)` of the block the body stores: the convolution over the block's row `p`, as it is. -/
theorem output_block_apply (cnt : Vec Ideal S5000x1 .f32) (agg feat : Vec Ideal S5000x128 .f32) (wl wr : Vec Ideal S128x64 .f32)
    (b : Vec Ideal S1x64 .f32) (p : Fin 5000) (c : Fin 64) :
    k1_pay1 (F := Ideal) cnt agg feat wl wr b (ix2 p c)
      = (∑ k : Fin 128, Ideal.div (agg (ix2 p k)) (max (cnt (ix2 p (0 : Fin 1))) Sage.one) * wl (ix2 k c)
              + ∑ k : Fin 128, feat (ix2 p k) * wr (ix2 k c))
            + b (ix2 (0 : Fin 1) c) := by
  unfold k1_pay1
  simp only [addf_apply, matmul_narrow_apply, truncf_apply, divf_apply, broadcast_apply, maximumf_apply,
    shapeCast_self, LibKeepdims.broadcastTo_a1_ab_apply, broadcastTo_1b_ab_apply]
  rfl

end Cert.KernelIdeal.Pay

end
-- ==== Proof.RegionHidden.lean ====
/-
  The first region: the hidden layer, block by block.

  The grid has 20 points; point `t` works on nodes `5000·t … 5000·t + 4999`: it reads those rows of the neighbour sums, of the
  in-degree column and of the layer's input, reads both weight matrices and the bias row whole, and writes back those rows of the
  result. Row `p` of what it writes is the layer's formula at node `5000·t + p`, so every point writes its block of ONE function
  of the arrays the region finds, and the 20 blocks tile the result: after the region the result array is that function.
-/
import proofs.«174134_j14474039787538_1_alg».proof.Proof.Gen.KernelIdeal.Frame
import proofs.«174134_j14474039787538_1_alg».proof.Proof.Payload

set_option maxRecDepth 16384

noncomputable section

namespace Cert.KernelIdeal.Hidden

open Cert.KernelIdeal Cert.KernelIdeal.Gen Idealize.ShloMosaic Idealize.ShloMosaic.TcCoe Idealize.ShloMosaic.ValueIdx Idealize.SL.Sem

-- the TensorCore's buffer contents when the region is entered
variable (V : (c : Dev nD) → (b : Ref sig .tc) → Buf (Elt Ideal) ((c : Thread nD τ).loc b))

/-! ## The arrays the region reads, at their literal types -/

abbrev aggArr (c : Dev nD) : Vec Ideal S100000x128 .f32 := V c main_v13
abbrev cntArr (c : Dev nD) : Vec Ideal S100000x1 .f32 := V c main_v18
abbrev featArr (c : Dev nD) : Vec Ideal S100000x128 .f32 := V c main_arg0
abbrev wlArr (c : Dev nD) : Vec Ideal S128x128 .f32 := V c main_arg2
abbrev wrArr (c : Dev nD) : Vec Ideal S128x128 .f32 := V c main_arg3
abbrev biasArr (c : Dev nD) : Vec Ideal S1x128 .f32 := V c main_v19

/-- The layer over those arrays (the in-degree read down its column, the bias along its row). -/
def layer (c : Dev nD) : Vec Ideal S100000x128 .f32 :=
  Sage.hidden (aggArr V c) (fun j => cntArr V c (ix2 (j 0) (0 : Fin 1))) (featArr V c) (wlArr V c) (wrArr V c)
    (fun j => biasArr V c (ix2 (0 : Fin 1) (j 0)))

/-! ## Which block each window holds at a point -/

theorem hz : (![0, 0] : Fin 2 → Nat) = fun _ => 0 := funext fun a => by fin_cases a <;> rfl

/-- The printed index maps over the grid: the three row-blocked inputs and the output sit at block `(t, 0)`, the weights and
    the bias at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt_points (t : Fin cfg0.N) : t.val < 20 := lt_of_lt_of_eq t.isLt N_0

/-- The node that row `p` of point `t`'s block is. -/
def node (t : Fin cfg0.N) (p : Fin 5000) : Fin 100000 :=
  ⟨t.val * 5000 + p.val, by have := lt_points t; have := p.isLt; omega⟩

/-! ## The blocks read where the arrays hold them -/

theorem read_agg (c : Dev nD) (t : Fin cfg0.N) (p : Fin 5000) (k : Fin 128) :
    iblk0 V c 0 t (ix2 p k) = aggArr V c (ix2 (node t p) k) := by
  show V c main_v13 (((cfg0.win 0).blk t).view.emb (ix2 p k)) = V c main_v13 (ix2 (node t p) k)
  refine congrArg (V c main_v13) (funext fun a => Fin.ext ?_)
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 128 + 1 * k.val = k.val; omega

theorem read_cnt (c : Dev nD) (t : Fin cfg0.N) (p : Fin 5000) :
    iblk0 V c 1 t (ix2 p (0 : Fin 1)) = cntArr V c (ix2 (node t p) (0 : Fin 1)) := by
  show V c main_v18 (((cfg0.win 1).blk t).view.emb (ix2 p (0 : Fin 1))) = V c main_v18 (ix2 (node t p) (0 : Fin 1))
  refine congrArg (V c main_v18) (funext fun a => Fin.ext ?_)
  obtain ⟨-, -, e0, e1, -⟩ := idx_facts t
  match a with
  | ⟨0, _⟩ => show win0_1.index t (0 : Fin 2) * 5000 + 1 * p.val = t.val * 5000 + p.val; omega
  | ⟨1, _⟩ => show win0_1.index t (1 : Fin 2) * 1 + 1 * 0 = 0; omega

theorem read_feat (c : Dev nD) (t : Fin cfg0.N) (p : Fin 5000) (k : Fin 128) :
    iblk0 V c 2 t (ix2 p k) = featArr V c (ix2 (node t p) k) := by
  show V c main_arg0 (((cfg0.win 2).blk t).view.emb (ix2 p k)) = V c main_arg0 (ix2 (node t p) k)
  refine congrArg (V c main_arg0) (funext fun a => Fin.ext ?_)
  obtain ⟨-, -, -, -, e0, e1, -⟩ := idx_facts t
  match a with
  | ⟨0, _⟩ => show win0_2.index t (0 : Fin 2) * 5000 + 1 * p.val = t.val * 5000 + p.val; omega
  | ⟨1, _⟩ => show win0_2.index t (1 : Fin 2) * 128 + 1 * k.val = k.val; omega

theorem read_wl (c : Dev nD) (t : Fin cfg0.N) (k : Fin 128) (q : Fin 128) :
    iblk0 V c 3 t (ix2 k q) = wlArr V c (ix2 k q) := by
  show V c main_arg2 (((cfg0.win 3).blk t).view.emb (ix2 k q)) = V c main_arg2 (ix2 k q)
  refine congrArg (V c main_arg2) (funext fun a => Fin.ext ?_)
  obtain ⟨-, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * q.val = q.val; omega

theorem read_wr (c : Dev nD) (t : Fin cfg0.N) (k : Fin 128) (q : Fin 128) :
    iblk0 V c 4 t (ix2 k q) = wrArr V c (ix2 k q) := by
  show V c main_arg3 (((cfg0.win 4).blk t).view.emb (ix2 k q)) = V c main_arg3 (ix2 k q)
  refine congrArg (V c main_arg3) (funext fun a => Fin.ext ?_)
  obtain ⟨-, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 128 + 1 * q.val = q.val; omega

theorem read_bias (c : Dev nD) (t : Fin cfg0.N) (q : Fin 128) :
    iblk0 V c 5 t (ix2 (0 : Fin 1) q) = biasArr V c (ix2 (0 : Fin 1) q) := by
  show V c main_v19 (((cfg0.win 5).blk t).view.emb (ix2 (0 : Fin 1) q)) = V c main_v19 (ix2 (0 : Fin 1) q)
  refine congrArg (V c main_v19) (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 128 + 1 * q.val = q.val; omega

/-- Entry `(p, q)` of point `t`'s output block sits in the result at node `node t p`, feature `q`. -/
theorem emb_out (t : Fin cfg0.N) (p : Fin 5000) (q : Fin 128) :
    ((cfg0.win 6).blk t).view.emb (ix2 p q) = ix2 (node t p) q := by
  refine funext fun a => Fin.ext ?_
  obtain ⟨-, -, -, -, -, -, -, -, -, -, -, -, e0, e1⟩ := idx_facts t
  match a with
  | ⟨0, _⟩ => show win0_6.index t (0 : Fin 2) * 5000 + 1 * p.val = t.val * 5000 + p.val; omega
  | ⟨1, _⟩ => show win0_6.index t (1 : Fin 2) * 128 + 1 * q.val = q.val; omega

/-! ## What a point writes back -/

/-- Point `t` writes back block `t` of the layer over the arrays the region finds. -/
theorem flushed_eq (c : Dev nD) (t : Fin cfg0.N) :
    (dat0 V c).flushed 6 t = ((cfg0.win 6).blk t).view.read (Elt Ideal) (layer V c) := by
  show (cfg0.win 6).cut (grid0.coords t) ((dat0 V c).after 6 t) = _
  rw [after0_6]
  unfold out0_6
  rw [View.canon_unit_zero hz]
  simp only [View.ld_unit_zero (S := S5000x1) hz, View.ld_unit_zero (S := S5000x128) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 1 t) (iblk0 V c 0 t) (iblk0 V c 2 t) (iblk0 V c 3 t) (iblk0 V c 4 t) (iblk0 V c 5 t) (ix2 p q)
    = layer V c (((cfg0.win 6).blk t).view.emb (ix2 p q))
  refine (Pay.hidden_block_apply (iblk0 V c 1 t) (iblk0 V c 0 t) (iblk0 V c 2 t) (iblk0 V c 3 t) (iblk0 V c 4 t) (iblk0 V c 5 t) p q).trans ?_
  rw [emb_out]
  simp only [read_agg, read_cnt, read_feat, read_wl, read_wr, read_bias]
  rfl

/-! ## The blocks tile the result -/

/-- An index of the result is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- Node `r` is in the block of point `r / 5000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  refine ⟨⟨(i 0).val / 5000, hN⟩, flush0_6 _, ?_⟩
  rw [mem_blk]
  obtain ⟨-, -, -, -, -, -, -, -, -, -, -, -, e0, e1⟩ := idx_facts ⟨(i 0).val / 5000, hN⟩
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ (1 : Fin 2) * 128 ≤ (i 1).val ∧ (i 1).val < win0_6.index ⟨(i 0).val / 5000, hN⟩ (1 : Fin 2) * 128 + 128
    rw [e1]; omega

/-- After the region the result array is the layer over the arrays the region found. -/
theorem final (c : Dev nD) : (dat0 V c).arrAt 6 cfg0.N = layer V c :=
  (dat0 V c).arrAt_eq_of_cover 6 (layer V c) (fun t _ => flushed_eq V c t) (cover)

end Cert.KernelIdeal.Hidden

end
-- ==== Proof.RegionOutput.lean ====
/-
  The second region: the output layer, block by block.

  The grid has 20 points; point `t` works on nodes `5000·t … 5000·t + 4999`: it reads those rows of the neighbour sums, of the
  in-degree column and of the layer's input, reads both weight matrices and the bias row whole, and writes back those rows of the
  result. Row `p` of what it writes is the layer's formula at node `5000·t + p`, so every point writes its block of ONE function
  of the arrays the region finds, and the 20 blocks tile the result: after the region the result array is that function.
-/
import proofs.«174134_j14474039787538_1_alg».proof.Proof.Gen.KernelIdeal.Frame
import proofs.«174134_j14474039787538_1_alg».proof.Proof.Payload

set_option maxRecDepth 16384

noncomputable section

namespace Cert.KernelIdeal.Output

open Cert.KernelIdeal Cert.KernelIdeal.Gen Idealize.ShloMosaic Idealize.ShloMosaic.TcCoe Idealize.ShloMosaic.ValueIdx Idealize.SL.Sem

-- the TensorCore's buffer contents when the region is entered
variable (V : (c : Dev nD) → (b : Ref sig .tc) → Buf (Elt Ideal) ((c : Thread nD τ).loc b))

/-! ## The arrays the region reads, at their literal types -/

abbrev aggArr (c : Dev nD) : Vec Ideal S100000x128 .f32 := V c main_v30
abbrev cntArr (c : Dev nD) : Vec Ideal S100000x1 .f32 := V c main_v18
abbrev featArr (c : Dev nD) : Vec Ideal S100000x128 .f32 := V c main_v20
abbrev wlArr (c : Dev nD) : Vec Ideal S128x64 .f32 := V c main_arg5
abbrev wrArr (c : Dev nD) : Vec Ideal S128x64 .f32 := V c main_arg6
abbrev biasArr (c : Dev nD) : Vec Ideal S1x64 .f32 := V c main_v31

/-- The layer over those arrays (the in-degree read down its column, the bias along its row). -/
def layer (c : Dev nD) : Vec Ideal S100000x64 .f32 :=
  Sage.output (aggArr V c) (fun j => cntArr V c (ix2 (j 0) (0 : Fin 1))) (featArr V c) (wlArr V c) (wrArr V c)
    (fun j => biasArr V c (ix2 (0 : Fin 1) (j 0)))

/-! ## Which block each window holds at a point -/

theorem hz : (![0, 0] : Fin 2 → Nat) = fun _ => 0 := funext fun a => by fin_cases a <;> rfl

/-- The printed index maps over the grid: the three row-blocked inputs and the output sit at block `(t, 0)`, the weights and
    the bias at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem lt_points (t : Fin cfg1.N) : t.val < 20 := lt_of_lt_of_eq t.isLt N_1

/-- The node that row `p` of point `t`'s block is. -/
def node (t : Fin cfg1.N) (p : Fin 5000) : Fin 100000 :=
  ⟨t.val * 5000 + p.val, by have := lt_points t; have := p.isLt; omega⟩

/-! ## The blocks read where the arrays hold them -/

theorem read_agg (c : Dev nD) (t : Fin cfg1.N) (p : Fin 5000) (k : Fin 128) :
    iblk1 V c 0 t (ix2 p k) = aggArr V c (ix2 (node t p) k) := by
  show V c main_v30 (((cfg1.win 0).blk t).view.emb (ix2 p k)) = V c main_v30 (ix2 (node t p) k)
  refine congrArg (V c main_v30) (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

theorem read_cnt (c : Dev nD) (t : Fin cfg1.N) (p : Fin 5000) :
    iblk1 V c 1 t (ix2 p (0 : Fin 1)) = cntArr V c (ix2 (node t p) (0 : Fin 1)) := by
  show V c main_v18 (((cfg1.win 1).blk t).view.emb (ix2 p (0 : Fin 1))) = V c main_v18 (ix2 (node t p) (0 : Fin 1))
  refine congrArg (V c main_v18) (funext fun a => Fin.ext ?_)
  obtain ⟨-, -, e0, e1, -⟩ := idx_facts t
  match a with
  | ⟨0, _⟩ => show win1_1.index t (0 : Fin 2) * 5000 + 1 * p.val = t.val * 5000 + p.val; omega
  | ⟨1, _⟩ => show win1_1.index t (1 : Fin 2) * 1 + 1 * 0 = 0; omega

theorem read_feat (c : Dev nD) (t : Fin cfg1.N) (p : Fin 5000) (k : Fin 128) :
    iblk1 V c 2 t (ix2 p k) = featArr V c (ix2 (node t p) k) := by
  show V c main_v20 (((cfg1.win 2).blk t).view.emb (ix2 p k)) = V c main_v20 (ix2 (node t p) k)
  refine congrArg (V c main_v20) (funext fun a => Fin.ext ?_)
  obtain ⟨-, -, -, -, e0, e1, -⟩ := idx_facts t
  match a with
  | ⟨0, _⟩ => show win1_2.index t (0 : Fin 2) * 5000 + 1 * p.val = t.val * 5000 + p.val; omega
  | ⟨1, _⟩ => show win1_2.index t (1 : Fin 2) * 128 + 1 * k.val = k.val; omega

theorem read_wl (c : Dev nD) (t : Fin cfg1.N) (k : Fin 128) (q : Fin 64) :
    iblk1 V c 3 t (ix2 k q) = wlArr V c (ix2 k q) := by
  show V c main_arg5 (((cfg1.win 3).blk t).view.emb (ix2 k q)) = V c main_arg5 (ix2 k q)
  refine congrArg (V c main_arg5) (funext fun a => Fin.ext ?_)
  obtain ⟨-, -, -, -, -, -, e0, e1, -⟩ := idx_facts t
  match a with
  | ⟨0, _⟩ => show win1_3.index t (0 : Fin 2) * 128 + 1 * k.val = k.val; omega
  | ⟨1, _⟩ => show win1_3.index t (1 : Fin 2) * 64 + 1 * q.val = q.val; omega

theorem read_wr (c : Dev nD) (t : Fin cfg1.N) (k : Fin 128) (q : Fin 64) :
    iblk1 V c 4 t (ix2 k q) = wrArr V c (ix2 k q) := by
  show V c main_arg6 (((cfg1.win 4).blk t).view.emb (ix2 k q)) = V c main_arg6 (ix2 k q)
  refine congrArg (V c main_arg6) (funext fun a => Fin.ext ?_)
  obtain ⟨-, -, -, -, -, -, -, -, e0, e1, -⟩ := idx_facts t
  match a with
  | ⟨0, _⟩ => show win1_4.index t (0 : Fin 2) * 128 + 1 * k.val = k.val; omega
  | ⟨1, _⟩ => show win1_4.index t (1 : Fin 2) * 64 + 1 * q.val = q.val; omega

theorem read_bias (c : Dev nD) (t : Fin cfg1.N) (q : Fin 64) :
    iblk1 V c 5 t (ix2 (0 : Fin 1) q) = biasArr V c (ix2 (0 : Fin 1) q) := by
  show V c main_v31 (((cfg1.win 5).blk t).view.emb (ix2 (0 : Fin 1) q)) = V c main_v31 (ix2 (0 : Fin 1) q)
  refine congrArg (V c main_v31) (funext fun a => Fin.ext ?_)
  obtain ⟨-, -, -, -, -, -, -, -, -, -, e0, e1, -⟩ := idx_facts t
  match a with
  | ⟨0, _⟩ => show win1_5.index t (0 : Fin 2) * 1 + 1 * 0 = 0; omega
  | ⟨1, _⟩ => show win1_5.index t (1 : Fin 2) * 64 + 1 * q.val = q.val; omega

/-- Entry `(p, q)` of point `t`'s output block sits in the result at node `node t p`, feature `q`. -/
theorem emb_out (t : Fin cfg1.N) (p : Fin 5000) (q : Fin 64) :
    ((cfg1.win 6).blk t).view.emb (ix2 p q) = ix2 (node t p) q := by
  refine funext fun a => Fin.ext ?_
  obtain ⟨-, -, -, -, -, -, -, -, -, -, -, -, e0, e1⟩ := idx_facts t
  match a with
  | ⟨0, _⟩ => show win1_6.index t (0 : Fin 2) * 5000 + 1 * p.val = t.val * 5000 + p.val; omega
  | ⟨1, _⟩ => show win1_6.index t (1 : Fin 2) * 64 + 1 * q.val = q.val; omega

/-! ## What a point writes back -/

/-- Point `t` writes back block `t` of the layer over the arrays the region finds. -/
theorem flushed_eq (c : Dev nD) (t : Fin cfg1.N) :
    (dat1 V c).flushed 6 t = ((cfg1.win 6).blk t).view.read (Elt Ideal) (layer V c) := by
  show (cfg1.win 6).cut (grid1.coords t) ((dat1 V c).after 6 t) = _
  rw [after1_6]
  unfold out1_6
  rw [View.canon_unit_zero hz]
  simp only [View.ld_unit_zero (S := S5000x1) hz, View.ld_unit_zero (S := S5000x128) hz, View.ld_unit_zero (S := S128x64) hz,
    View.ld_unit_zero (S := S1x64) hz]
  funext j
  obtain ⟨p, q, rfl⟩ : ∃ (p : Fin 5000) (q : Fin 64), j = ix2 p q := ⟨j 0, j 1, eq_ix2 j⟩
  show k1_pay1 (F := Ideal) (iblk1 V c 1 t) (iblk1 V c 0 t) (iblk1 V c 2 t) (iblk1 V c 3 t) (iblk1 V c 4 t) (iblk1 V c 5 t) (ix2 p q)
    = layer V c (((cfg1.win 6).blk t).view.emb (ix2 p q))
  refine (Pay.output_block_apply (iblk1 V c 1 t) (iblk1 V c 0 t) (iblk1 V c 2 t) (iblk1 V c 3 t) (iblk1 V c 4 t) (iblk1 V c 5 t) p q).trans ?_
  rw [emb_out]
  simp only [read_agg, read_cnt, read_feat, read_wl, read_wr, read_bias]
  rfl

/-! ## The blocks tile the result -/

/-- An index of the result is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v32).slice (win1_6.rect t)).set ↔ _
  rw [View.set_slice_whole, Rect.mem_set_unit]
  exact Iff.rfl

/-- Node `r` is in the block of point `r / 5000`. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 5000 < cfg1.N := lt_of_lt_of_eq (by omega : (i 0).val / 5000 < 20) N_1.symm
  refine ⟨⟨(i 0).val / 5000, hN⟩, flush1_6 _, ?_⟩
  rw [mem_blk]
  obtain ⟨-, -, -, -, -, -, -, -, -, -, -, -, e0, e1⟩ := idx_facts ⟨(i 0).val / 5000, hN⟩
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hN⟩ (1 : Fin 2) * 64 ≤ (i 1).val ∧ (i 1).val < win1_6.index ⟨(i 0).val / 5000, hN⟩ (1 : Fin 2) * 64 + 64
    rw [e1]; omega

/-- After the region the result array is the layer over the arrays the region found. -/
theorem final (c : Dev nD) : (dat1 V c).arrAt 6 cfg1.N = layer V c :=
  (dat1 V c).arrAt_eq_of_cover 6 (layer V c) (fun t _ => flushed_eq V c t) (cover)

end Cert.KernelIdeal.Output

end
-- ==== Proof.RefLayers.lean ====
/-
  The reference, layer by layer. Its stages are read one at a time down to the two sums that aggregate over the edges, which
  stay closed: at a node and an output feature, each layer is the convolution of the specification over the neighbour sums, the
  in-degrees and the layer's input, the first floored at zero.
-/
import proofs.«174134_j14474039787538_1_alg».proof.Proof.Gen.ReferenceIdeal.Read
import proofs.«174134_j14474039787538_1_alg».proof.Proof.Spec

noncomputable section

namespace Cert.ReferenceIdeal.Layers

open Cert.ReferenceIdeal Cert.ReferenceIdeal.Read Idealize.ShloMosaic Idealize.ShloMosaic.ValueIdx

/-! ## Where each stage reads its operand: the printed index maps at a node `r`, a feature `k` or `q` -/

theorem lidx23 (r : Fin 100000) (q k : Fin 128) : lidx_main_v23 (ix2 r q) k = ix2 r k :=
  funext fun a => by match a with | ⟨0, _⟩ => rfl | ⟨1, _⟩ => rfl
theorem ridx23 (r : Fin 100000) (q k : Fin 128) : ridx_main_v23 (ix2 r q) k = ix2 k q :=
  funext fun a => by match a with | ⟨0, _⟩ => rfl | ⟨1, _⟩ => rfl
theorem lidx24 (r : Fin 100000) (q k : Fin 128) : lidx_main_v24 (ix2 r q) k = ix2 r k :=
  funext fun a => by match a with | ⟨0, _⟩ => rfl | ⟨1, _⟩ => rfl
theorem ridx24 (r : Fin 100000) (q k : Fin 128) : ridx_main_v24 (ix2 r q) k = ix2 k q :=
  funext fun a => by match a with | ⟨0, _⟩ => rfl | ⟨1, _⟩ => rfl
theorem lidx49 (r : Fin 100000) (q : Fin 64) (k : Fin 128) : lidx_main_v49 (ix2 r q) k = ix2 r k :=
  funext fun a => by match a with | ⟨0, _⟩ => rfl | ⟨1, _⟩ => rfl
theorem ridx49 (r : Fin 100000) (q : Fin 64) (k : Fin 128) : ridx_main_v49 (ix2 r q) k = ix2 k q :=
  funext fun a => by match a with | ⟨0, _⟩ => rfl | ⟨1, _⟩ => rfl
theorem lidx50 (r : Fin 100000) (q : Fin 64) (k : Fin 128) : lidx_main_v50 (ix2 r q) k = ix2 r k :=
  funext fun a => by match a with | ⟨0, _⟩ => rfl | ⟨1, _⟩ => rfl
theorem ridx50 (r : Fin 100000) (q : Fin 64) (k : Fin 128) : ridx_main_v50 (ix2 r q) k = ix2 k q :=
  funext fun a => by match a with | ⟨0, _⟩ => rfl | ⟨1, _⟩ => rfl
/-- The in-degree column, broadcast along the features, reads its row. -/
theorem idx21 (r : Fin 100000) (k : Fin 128) : idx_main_v21 (ix2 r k) = ix2 r (0 : Fin 1) :=
  funext fun a => by match a with | ⟨0, _⟩ => rfl | ⟨1, _⟩ => rfl
theorem idx20 (r : Fin 100000) : idx_main_v20 (ix2 r (0 : Fin 1)) = ix1 r :=
  funext fun a => by match a with | ⟨0, _⟩ => rfl
theorem idx47 (r : Fin 100000) (k : Fin 128) : idx_main_v47 (ix2 r k) = ix2 r (0 : Fin 1) :=
  funext fun a => by match a with | ⟨0, _⟩ => rfl | ⟨1, _⟩ => rfl
theorem idx46 (r : Fin 100000) : idx_main_v46 (ix2 r (0 : Fin 1)) = ix1 r :=
  funext fun a => by match a with | ⟨0, _⟩ => rfl
/-- The bias, broadcast along the nodes, reads its feature. -/
theorem idx27 (r : Fin 100000) (q : Fin 128) : idx_main_v27 (ix2 r q) = ix2 (0 : Fin 1) q :=
  funext fun a => by match a with | ⟨0, _⟩ => rfl | ⟨1, _⟩ => rfl
theorem idx26 (q : Fin 128) : idx_main_v26 (ix2 (0 : Fin 1) q) = ix1 q :=
  funext fun a => by match a with | ⟨0, _⟩ => rfl
theorem idx53 (r : Fin 100000) (q : Fin 64) : idx_main_v53 (ix2 r q) = ix2 (0 : Fin 1) q :=
  funext fun a => by match a with | ⟨0, _⟩ => rfl | ⟨1, _⟩ => rfl
theorem idx52 (q : Fin 64) : idx_main_v52 (ix2 (0 : Fin 1) q) = ix1 q :=
  funext fun a => by match a with | ⟨0, _⟩ => rfl

/-! ## The two layers -/

/-- Hidden layer: an entry of the neighbour mean, the neighbour sum over the in-degree floored at one. -/
theorem mean_hidden (x0 : (⟨S100000x128, .f32⟩ : BufTy).Contents (Elt Ideal)) (x1 : (⟨S2x1600000, .i32⟩ : BufTy).Contents (Elt Ideal))
    (r : Fin 100000) (q k : Fin 128) :
    val_main_v22 (F := Ideal) x0 x1 (lidx_main_v23 (ix2 r q) k)
      = Ideal.div (val_main_v13 (F := Ideal) x0 x1 (ix2 r k)) (max (val_main_v17 (F := Ideal) x1 (ix1 r)) Sage.one) := by
  rw [lidx23, val_main_v22_apply, val_main_v21_apply, idx21, val_main_v20_apply, idx20, val_main_v19_apply, val_main_v18_apply,
    val_main_cst_3_apply]
  rfl

/-- Output layer: the same entry over the second neighbour sums and in-degrees. -/
theorem mean_output (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (r : Fin 100000) (q : Fin 64) (k : Fin 128) :
    val_main_v48 (F := Ideal) x0 x1 x2 x3 x4 (lidx_main_v49 (ix2 r q) k)
      = Ideal.div (val_main_v39 (F := Ideal) x0 x1 x2 x3 x4 (ix2 r k)) (max (val_main_v43 (F := Ideal) x1 (ix1 r)) Sage.one) := by
  rw [lidx49, val_main_v48_apply, val_main_v47_apply, idx47, val_main_v46_apply, idx46, val_main_v45_apply, val_main_v44_apply,
    val_main_cst_9_apply]
  rfl

/-- The reference's hidden layer is the specification's, over its own neighbour sums and in-degrees. -/
theorem hidden_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4
      = Sage.hidden (val_main_v13 (F := Ideal) x0 x1) (val_main_v17 (F := Ideal) x1) x0 x2 x3 x4 := by
  funext i
  obtain ⟨r, q, rfl⟩ : ∃ (r : Fin 100000) (q : Fin 128), i = ix2 r q := ⟨i 0, i 1, eq_ix2 i⟩
  rw [val_main_v29_apply, val_main_v28_apply, val_main_v25_apply, val_main_v23_apply, val_main_v24_apply, val_main_v27_apply,
    val_main_call0_v0_apply, val_main_call0_cst_apply]
  show max ((_ + _) + _) Sage.zero = max (Sage.conv _ _ _ _ _ _ r q) Sage.zero
  unfold Sage.conv
  refine congrArg (max · Sage.zero) (congrArg₂ (· + ·) (congrArg₂ (· + ·) (Finset.sum_congr rfl fun k _ => ?_)
    (Finset.sum_congr rfl fun k _ => ?_)) ?_)
  · rw [mean_hidden, ridx23]
  · rw [lidx24, ridx24]
  · rw [idx27, val_main_v26_apply, idx26]

/-- The reference's output layer is the specification's, over its own second neighbour sums and in-degrees and its hidden layer. -/
theorem output_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    val_main_v54 (F := Ideal) x0 x1 x2 x3 x4 x5 x6 x7
      = Sage.output (val_main_v39 (F := Ideal) x0 x1 x2 x3 x4) (val_main_v43 (F := Ideal) x1) (val_main_v29 (F := Ideal) x0 x1 x2 x3 x4) x5 x6 x7 := by
  funext i
  obtain ⟨r, q, rfl⟩ : ∃ (r : Fin 100000) (q : Fin 64), i = ix2 r q := ⟨i 0, i 1, eq_ix2 i⟩
  rw [val_main_v54_apply, val_main_v51_apply, val_main_v49_apply, val_main_v50_apply, val_main_v53_apply]
  show (_ + _) + _ = Sage.conv _ _ _ _ _ _ r q
  unfold Sage.conv
  refine congrArg₂ (· + ·) (congrArg₂ (· + ·) (Finset.sum_congr rfl fun k _ => ?_) (Finset.sum_congr rfl fun k _ => ?_)) ?_
  · rw [mean_output, ridx49]
  · rw [lidx50, ridx50]
  · rw [idx53, val_main_v52_apply, idx52]

end Cert.ReferenceIdeal.Layers

end
-- ==== Proof.Glue.lean ====
/-
  The kernel program's host side, joined to the reference's stages.

  Before the first region the program gathers the node features along the edges' sources and adds them up at the edges' targets,
  counts the edges at each target, and lays the count out as a column and the bias as a row; between the regions it does the same
  gather and sum over the hidden layer the first region left. These are the reference's own operations on the same arguments, so
  each array a region finds is a stage of the reference: the neighbour sums and the in-degrees stay closed terms, equal on both
  sides by their spelling. With the two regions' values this makes the program's result the reference's output stage.
-/
import proofs.«174134_j14474039787538_1_alg».proof.Proof.RegionHidden
import proofs.«174134_j14474039787538_1_alg».proof.Proof.RegionOutput
import proofs.«174134_j14474039787538_1_alg».proof.Proof.RefLayers
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.ValueIdx Idealize.SL.Sem
open Idealize.ShloMosaic.StableHlo
open Cert.ReferenceIdeal.Read (val_main_v1 val_main_v3 val_main_v13 val_main_v17 val_main_v29 val_main_v39 val_main_v43 val_main_v54)

variable (m : (ℓ : Loc nD τ sig) → Buf (Elt Ideal) ℓ) (ρ : Dev nD → PrngReg)

/-! ## The arguments, at the reference's types -/

abbrev x0 (c : Dev nD) : (⟨Cert.ReferenceIdeal.S100000x128, .f32⟩ : BufTy).Contents (Elt Ideal) := m ((c : Thread nD τ).loc main_arg0)
abbrev x1 (c : Dev nD) : (⟨Cert.ReferenceIdeal.S2x1600000, .i32⟩ : BufTy).Contents (Elt Ideal) := m ((c : Thread nD τ).loc main_arg1)
abbrev x2 (c : Dev nD) : (⟨Cert.ReferenceIdeal.S128x128, .f32⟩ : BufTy).Contents (Elt Ideal) := m ((c : Thread nD τ).loc main_arg2)
abbrev x3 (c : Dev nD) : (⟨Cert.ReferenceIdeal.S128x128, .f32⟩ : BufTy).Contents (Elt Ideal) := m ((c : Thread nD τ).loc main_arg3)
abbrev x4 (c : Dev nD) : (⟨Cert.ReferenceIdeal.S128, .f32⟩ : BufTy).Contents (Elt Ideal) := m ((c : Thread nD τ).loc main_arg4)
abbrev x5 (c : Dev nD) : (⟨Cert.ReferenceIdeal.S128x64, .f32⟩ : BufTy).Contents (Elt Ideal) := m ((c : Thread nD τ).loc main_arg5)
abbrev x6 (c : Dev nD) : (⟨Cert.ReferenceIdeal.S128x64, .f32⟩ : BufTy).Contents (Elt Ideal) := m ((c : Thread nD τ).loc main_arg6)
abbrev x7 (c : Dev nD) : (⟨Cert.ReferenceIdeal.S64, .f32⟩ : BufTy).Contents (Elt Ideal) := m ((c : Thread nD τ).loc main_arg7)

/-! ## What the first region finds -/

/-- The neighbour sums of the node features: the reference's, by the same operations on the same arguments. -/
theorem agg_first (c : Dev nD) : (V1 m ρ c main_v13 : S100000x128.Idx → EReal) = val_main_v13 (F := Ideal) (x0 m c) (x1 m c) := by
  show StableHlo.after hostOps0 (W0 m ρ c) (Proc.devRef .tc main_v13) = _
  after_results
  rfl

/-- The in-degree column is the reference's in-degrees, one per row. -/
theorem cnt_column (c : Dev nD) :
    (V1 m ρ c main_v18 : S100000x1.Idx → EReal) = shapeCast S100000x1 (val_main_v17 (F := Ideal) (x1 m c)) shapeCasts_S100000_S100000x1 := by
  show StableHlo.after hostOps0 (W0 m ρ c) (Proc.devRef .tc main_v18) = _
  after_results
  rfl

theorem cnt_first (c : Dev nD) :
    (fun j : Sage.PerNode.Idx => (V1 m ρ c main_v18 : S100000x1.Idx → EReal) (ix2 (j 0) (0 : Fin 1))) = val_main_v17 (F := Ideal) (x1 m c) := by
  funext j
  rw [cnt_column]
  exact (LibKeepdims.shapeCast_a_a1_apply _ _ (j 0) (0 : Fin 1)).trans (congrArg _ (eq_ix1 j).symm)

theorem feat_first (c : Dev nD) : (V1 m ρ c main_arg0 : S100000x128.Idx → EReal) = x0 m c := by
  show StableHlo.after hostOps0 (W0 m ρ c) (Proc.devRef .tc main_arg0) = _
  after_results

theorem wl_first (c : Dev nD) : (V1 m ρ c main_arg2 : S128x128.Idx → EReal) = x2 m c := by
  show StableHlo.after hostOps0 (W0 m ρ c) (Proc.devRef .tc main_arg2) = _
  after_results

theorem wr_first (c : Dev nD) : (V1 m ρ c main_arg3 : S128x128.Idx → EReal) = x3 m c := by
  show StableHlo.after hostOps0 (W0 m ρ c) (Proc.devRef .tc main_arg3) = _
  after_results

/-- The bias row is the bias, one per column. -/
theorem bias_row_first (c : Dev nD) :
    (V1 m ρ c main_v19 : S1x128.Idx → EReal) = shapeCast S1x128 (x4 m c) shapeCasts_S128_S1x128 := by
  show StableHlo.after hostOps0 (W0 m ρ c) (Proc.devRef .tc main_v19) = _
  after_results
  rfl

theorem bias_first (c : Dev nD) :
    (fun j : (⟨1, ![128]⟩ : Shape).Idx => (V1 m ρ c main_v19 : S1x128.Idx → EReal) (ix2 (0 : Fin 1) (j 0))) = x4 m c := by
  funext j
  rw [bias_row_first]
  exact (shapeCast_a_1a_apply _ _ (0 : Fin 1) (j 0)).trans (congrArg _ (eq_ix1 j).symm)

/-- So the first region leaves the reference's hidden layer. -/
theorem hidden_value (c : Dev nD) :
    (dat0 (V1 m ρ) c).arrAt 6 cfg0.N = val_main_v29 (F := Ideal) (x0 m c) (x1 m c) (x2 m c) (x3 m c) (x4 m c) := by
  refine (Hidden.final (V1 m ρ) c).trans ?_
  rw [Cert.ReferenceIdeal.Layers.hidden_eq]
  unfold Hidden.layer
  rw [show Hidden.aggArr (V1 m ρ) c = _ from agg_first m ρ c, show Hidden.featArr (V1 m ρ) c = _ from feat_first m ρ c,
    show Hidden.wlArr (V1 m ρ) c = _ from wl_first m ρ c, show Hidden.wrArr (V1 m ρ) c = _ from wr_first m ρ c]
  exact congrArg₂ (fun a b => Sage.hidden _ a _ _ _ b) (cnt_first m ρ c) (bias_first m ρ c)

/-! ## What the second region finds -/

/-- The edges' sources and targets are no array of the first region: they are as the host left them. -/
theorem src_kept (c : Dev nD) : W2 m ρ c (Proc.devRef .tc main_v1) = val_main_v1 (F := Ideal) (x1 m c) :=
  (W2_of_ne m ρ c main_v1 (by decide)).trans (by
    show StableHlo.after hostOps0 (W0 m ρ c) (Proc.devRef .tc main_v1) = _
    after_results
    rfl)

theorem dst_kept (c : Dev nD) : W2 m ρ c (Proc.devRef .tc main_v3) = val_main_v3 (F := Ideal) (x1 m c) :=
  (W2_of_ne m ρ c main_v3 (by decide)).trans (by
    show StableHlo.after hostOps0 (W0 m ρ c) (Proc.devRef .tc main_v3) = _
    after_results
    rfl)

/-- The first region's result, where the second stretch of host operations reads it. -/
theorem hidden_kept (c : Dev nD) :
    W2 m ρ c (Proc.devRef .tc main_v20) = val_main_v29 (F := Ideal) (x0 m c) (x1 m c) (x2 m c) (x3 m c) (x4 m c) :=
  (W2_arr m ρ c 6).trans (hidden_value m ρ c)

/-- The neighbour sums of the hidden layer: the reference's second sums. -/
theorem agg_second (c : Dev nD) :
    (V3 m ρ c main_v30 : S100000x128.Idx → EReal) = val_main_v39 (F := Ideal) (x0 m c) (x1 m c) (x2 m c) (x3 m c) (x4 m c) := by
  show StableHlo.after hostOps1 (W2 m ρ c) (Proc.devRef .tc main_v30) = _
  after_results
  rw [src_kept, dst_kept, hidden_kept]
  rfl

theorem feat_second (c : Dev nD) :
    (V3 m ρ c main_v20 : S100000x128.Idx → EReal) = val_main_v29 (F := Ideal) (x0 m c) (x1 m c) (x2 m c) (x3 m c) (x4 m c) := by
  show StableHlo.after hostOps1 (W2 m ρ c) (Proc.devRef .tc main_v20) = _
  after_results
  exact hidden_kept m ρ c

/-- The in-degree column is an input of the first region, which leaves it as it found it. -/
theorem cnt_column_kept (c : Dev nD) : (V3 m ρ c main_v18 : S100000x1.Idx → EReal) = V1 m ρ c main_v18 := by
  show StableHlo.after hostOps1 (W2 m ρ c) (Proc.devRef .tc main_v18) = _
  after_results
  exact (W2_arr m ρ c 1).trans (((dat0 (V1 m ρ) c).arrAt_in 1 rfl _).trans (A_eq0 (V1 m ρ) c 1))

/-- The reference counts the in-degrees a second time, by the same operations. -/
theorem cnt_second (c : Dev nD) :
    (fun j : Sage.PerNode.Idx => (V3 m ρ c main_v18 : S100000x1.Idx → EReal) (ix2 (j 0) (0 : Fin 1))) = val_main_v43 (F := Ideal) (x1 m c) := by
  rw [cnt_column_kept]
  exact cnt_first m ρ c

theorem wl_second (c : Dev nD) : (V3 m ρ c main_arg5 : S128x64.Idx → EReal) = x5 m c := by
  show StableHlo.after hostOps1 (W2 m ρ c) (Proc.devRef .tc main_arg5) = _
  after_results
  refine (W2_of_ne m ρ c main_arg5 (by decide)).trans ?_
  show StableHlo.after hostOps0 (W0 m ρ c) (Proc.devRef .tc main_arg5) = _
  after_results

theorem wr_second (c : Dev nD) : (V3 m ρ c main_arg6 : S128x64.Idx → EReal) = x6 m c := by
  show StableHlo.after hostOps1 (W2 m ρ c) (Proc.devRef .tc main_arg6) = _
  after_results
  refine (W2_of_ne m ρ c main_arg6 (by decide)).trans ?_
  show StableHlo.after hostOps0 (W0 m ρ c) (Proc.devRef .tc main_arg6) = _
  after_results

theorem bias_kept (c : Dev nD) : W2 m ρ c (Proc.devRef .tc main_arg7) = x7 m c := by
  refine (W2_of_ne m ρ c main_arg7 (by decide)).trans ?_
  show StableHlo.after hostOps0 (W0 m ρ c) (Proc.devRef .tc main_arg7) = _
  after_results

theorem bias_row_second (c : Dev nD) :
    (V3 m ρ c main_v31 : S1x64.Idx → EReal) = shapeCast S1x64 (x7 m c) shapeCasts_S64_S1x64 := by
  show StableHlo.after hostOps1 (W2 m ρ c) (Proc.devRef .tc main_v31) = _
  after_results
  rw [bias_kept]
  rfl

theorem bias_second (c : Dev nD) :
    (fun j : (⟨1, ![64]⟩ : Shape).Idx => (V3 m ρ c main_v31 : S1x64.Idx → EReal) (ix2 (0 : Fin 1) (j 0))) = x7 m c := by
  funext j
  rw [bias_row_second]
  exact (shapeCast_a_1a_apply _ _ (0 : Fin 1) (j 0)).trans (congrArg _ (eq_ix1 j).symm)

/-- So the second region leaves the reference's output. -/
theorem output_value (c : Dev nD) :
    (dat1 (V3 m ρ) c).arrAt 6 cfg1.N
      = val_main_v54 (F := Ideal) (x0 m c) (x1 m c) (x2 m c) (x3 m c) (x4 m c) (x5 m c) (x6 m c) (x7 m c) := by
  refine (Output.final (V3 m ρ) c).trans ?_
  rw [Cert.ReferenceIdeal.Layers.output_eq]
  unfold Output.layer
  rw [show Output.aggArr (V3 m ρ) c = _ from agg_second m ρ c, show Output.featArr (V3 m ρ) c = _ from feat_second m ρ c,
    show Output.wlArr (V3 m ρ) c = _ from wl_second m ρ c, show Output.wrArr (V3 m ρ) c = _ from wr_second m ρ c]
  exact congrArg₂ (fun a b => Sage.output _ a _ _ _ b) (cnt_second m ρ c) (bias_second m ρ c)

end Cert.KernelIdeal.Glue

end
-- ==== Proof.lean ====
/-
  Two stacked SAGE convolutions (mean aggregation over the edges, then two 128-row weight matrices and a bias per layer, the first
  layer floored at zero) computed by two tiled matrix-product kernels, against the same network written with whole-array
  operations.

  Over the extended reals the two programs are one function. The gather along the edges' sources, the sum at the edges' targets
  and the edge count are the same host operations in both programs and are never opened. What a kernel region computes for a
  block of 5000 nodes is, row by row, the layer's formula — neighbour sum over the in-degree floored at one, times the left
  weights; the node's own features times the right weights; plus the bias — with both matrix products read as sums over the 128
  contracted features in the reference's own order, and the changes of float format on the way into the products the identity.
  The 20 blocks of each region tile its result, so each region leaves the whole layer; the first region's result is what the
  second stretch of host operations gathers from. No law of arithmetic is needed beyond reading both sides at an index, so the
  finiteness of the inputs is not used. The kernel's idealization rewrites nothing, so there is nothing to preserve.
-/
import proofs.«174134_j14474039787538_1_alg».proof.Defs
import proofs.«174134_j14474039787538_1_alg».proof.Proof.Gen.Kernel
import proofs.«174134_j14474039787538_1_alg».proof.Proof.Gen.Kernel.Skeleton
import proofs.«174134_j14474039787538_1_alg».proof.Proof.Gen.Kernel.Launch
import proofs.«174134_j14474039787538_1_alg».proof.Proof.Gen.Kernel.Points
import proofs.«174134_j14474039787538_1_alg».proof.Proof.Gen.Kernel.Frame
import proofs.«174134_j14474039787538_1_alg».proof.Proof.Gen.KernelIdeal
import proofs.«174134_j14474039787538_1_alg».proof.Proof.Gen.KernelIdeal.Skeleton
import proofs.«174134_j14474039787538_1_alg».proof.Proof.Gen.KernelIdeal.Launch
import proofs.«174134_j14474039787538_1_alg».proof.Proof.Gen.KernelIdeal.Points
import proofs.«174134_j14474039787538_1_alg».proof.Proof.Gen.KernelIdeal.Frame
import proofs.«174134_j14474039787538_1_alg».proof.Proof.Gen.ReferenceIdeal
import proofs.«174134_j14474039787538_1_alg».proof.Proof.Gen.Pre_finite_inputs
import proofs.«174134_j14474039787538_1_alg».proof.Proof.Gen.ReferenceIdeal.Run
import proofs.«174134_j14474039787538_1_alg».proof.Proof.Gen.ReferenceIdeal.Read
import proofs.«174134_j14474039787538_1_alg».proof.Proof.KernelRun
import proofs.«174134_j14474039787538_1_alg».proof.Proof.Glue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the same program over the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the reference's output stage of the (shared) arguments: the kernel program because its second region
    leaves that stage in the result array, the reference by its own run. -/
theorem algebraic : Cert.algebraic_KernelIdeal_ReferenceIdeal := by
  intro m ρ m' ρ' _ hagree
  refine ⟨fun c => Cert.ReferenceIdeal.Read.val_main_v54 (F := Ideal) (Cert.KernelIdeal.Glue.x0 m c) (Cert.KernelIdeal.Glue.x1 m c)
    (Cert.KernelIdeal.Glue.x2 m c) (Cert.KernelIdeal.Glue.x3 m c) (Cert.KernelIdeal.Glue.x4 m c) (Cert.KernelIdeal.Glue.x5 m c)
    (Cert.KernelIdeal.Glue.x6 m c) (Cert.KernelIdeal.Glue.x7 m c), ?_, ?_⟩
  · exact (θ_run Cert.KernelIdeal.defs _ _).mono
      (fun r h c => ⟨(h c).1.trans (Cert.KernelIdeal.Glue.output_value m ρ c), (h c).2⟩) (Cert.KernelIdeal.RunV.run_main m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
